-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x2048 : Shape := ⟨2, ![512, 2048]⟩
abbrev S2048 : Shape := ⟨1, ![2048]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S65536x512 .f32) (main_arg1 : FVec F S512x2048 .f32) (main_arg2 : FVec F S2048 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S65536x512 : Shape := ⟨2, ![65536, 512]⟩
abbrev S512x2048 : Shape := ⟨2, ![512, 2048]⟩
abbrev S2048 : Shape := ⟨1, ![2048]⟩
abbrev S1x2048 : Shape := ⟨2, ![1, 2048]⟩
abbrev S65536x2048 : Shape := ⟨2, ![65536, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x2048, .f32⟩
  | .hbm, ⟨2, _⟩ => ⟨S2048, .f32⟩
  | .hbm, ⟨3, _⟩ => ⟨S1x2048, .f32⟩
  | .hbm, ⟨4, _⟩ => ⟨S65536x2048, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x2048 : Shape := ⟨2, ![512, 2048]⟩
abbrev S2048 : Shape := ⟨1, ![2048]⟩
abbrev S65536x2048 : Shape := ⟨2, ![65536, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x2048, .f32⟩
  | .hbm, ⟨2, _⟩ => ⟨S2048, .f32⟩
  | .hbm, ⟨3, _⟩ => ⟨S65536x2048, .f32⟩
  | .hbm, ⟨4, _⟩ => ⟨S1x2048, .f32⟩
  | .hbm, ⟨5, _⟩ => ⟨S65536x2048, .f32⟩
  | .hbm, ⟨6, _⟩ => ⟨S65536x2048, .f32⟩
  | .hbm, ⟨7, _⟩ => ⟨S_, .f32⟩
  | .hbm, ⟨8, _⟩ => ⟨S_, .f32⟩
  | .hbm, ⟨9, _⟩ => ⟨S65536x2048, .f32⟩
  | .hbm, ⟨10, _⟩ => ⟨S65536x2048, .f32⟩
  | .hbm, ⟨11, _⟩ => ⟨S65536x2048, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  dot_S65536x512_S512x2048_S65536x2048_1_0_0_1_n_n_wf : DotDims.WF S65536x512 S512x2048 S65536x2048 [1] [0] [0] [1] [] []

variable [Facts₀]

def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The kernel body's one stored value, read at an entry of the [512 × 2048] output block.

  The body loads a [512 × 512] block of rows, the whole [512 × 2048] weight matrix and the [1 × 2048] offset row, and stores
  cos(rows · weights + offset) · 2⁻⁵. Over the extended reals the narrowing of both factors to bf16 is the identity, the matrix
  product into a zero accumulator is the sum over the 512 contracted positions, and the offset row is repeated down the rows,
  so entry (p, q) of the stored block is cos(∑ₖ rows[p, k] · weights[k, q] + offset[0, q]) · 2⁻⁵.
-/
import proofs.«115438_j78151224918211_1_alg».proof.Proof.Gen.KernelIdeal.Skeleton
import proofs.«115438_j78151224918211_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RffValue

open Cert.KernelIdeal Cert.KernelIdeal.Gen Idealize.ShloMosaic Idealize.ShloMosaic.ValueIdx

/-! ## Where the product's dimension numbers read their operands -/

/-- The left operand's row coordinate is the output's row. -/
theorem lhs_row (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl

/-- The left operand's column coordinate is the contracted position. -/
theorem lhs_col (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q

/-- The right operand's row coordinate is the contracted position. -/
theorem rhs_row (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q

/-- The right operand's column coordinate is the output's column. -/
theorem rhs_col (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-! ## The stored value at an entry -/

/-- Entry (p, q) of the product of the row block and the weights, accumulated into zero: the sum over the 512 contracted
    positions (narrowing to bf16 changes nothing over the extended reals). -/
theorem product_at (x0 : Vec Ideal S512x512 .f32) (x1 : Vec Ideal S512x2048 .f32) (p : Fin 512) (q : Fin 2048) :
    matmul dot_S512x512_S512x2048_S512x2048_1_0_0_1_n_n none (truncf (F := Ideal) .bf16 x0 bitsLt_bf16_f32) (truncf (F := Ideal) .bf16 x1 bitsLt_bf16_f32)
        (constant (F := Ideal) S512x2048 .f32 0x00000000#32) (ix2 p q)
      = ∑ k : Fin 512, x0 (ix2 p k) * x1 (ix2 k q) :=
  MatmulAt.matmul_zero_at dot_S512x512_S512x2048_S512x2048_1_0_0_1_n_n rfl rfl lhs_row lhs_col rhs_row rhs_col none _ _ p q

/-- Entry (p, q) of the offset row repeated down the 512 rows is the row's entry q. -/
theorem offset_at (x2 : Vec Ideal S1x2048 .f32) (p : Fin 512) (q : Fin 2048) :
    broadcastTo S512x2048 (shapeCast S1x2048 x2 shapeCasts_S1x2048_S1x2048) broadcasts_S1x2048_S512x2048 (ix2 p q) = x2 (ix2 (0 : Fin 1) q) := by
  rw [broadcastTo_1b_ab_apply, shapeCast_self]

/-- Entry (p, q) of the block the body stores: cos(∑ₖ rows[p, k] · weights[k, q] + offset[0, q]) · 2⁻⁵. -/
theorem stored_at (x0 : Vec Ideal S512x512 .f32) (x1 : Vec Ideal S512x2048 .f32) (x2 : Vec Ideal S1x2048 .f32) (p : Fin 512) (q : Fin 2048) :
    k0_pay1 (F := Ideal) x0 x1 x2 (ix2 p q)
      = Ideal.cos ((∑ k : Fin 512, x0 (ix2 p k) * x1 (ix2 k q)) + x2 (ix2 (0 : Fin 1) q)) * Ideal.ofBits .f32 0x3D000000#32 := by
  unfold k0_pay1
  show Ideal.cos (matmul dot_S512x512_S512x2048_S512x2048_1_0_0_1_n_n none (truncf (F := Ideal) .bf16 x0 bitsLt_bf16_f32) (truncf (F := Ideal) .bf16 x1 bitsLt_bf16_f32)
        (constant (F := Ideal) S512x2048 .f32 0x00000000#32) (ix2 p q)
      + broadcastTo S512x2048 (shapeCast S1x2048 x2 shapeCasts_S1x2048_S1x2048) broadcasts_S1x2048_S512x2048 (ix2 p q)) * Ideal.ofBits .f32 0x3D000000#32 = _
  rw [product_at, offset_at]

end Cert.KernelIdeal.RffValue

end
-- ==== Proof.Spec.lean ====
/-
  The function both programs compute: random Fourier features of the rows of a [65536 × 512] matrix.

  For a row matrix X, a [512 × 2048] weight matrix W and an offset vector b of length 2048, entry (r, q) of the result is
  cos(∑ₖ X[r, k] · W[k, q] + b[q]) · 2⁻⁵, read over the extended reals.
-/
import Idealize.ShloMosaic.PureOps.Ideal
import Idealize.ShloMosaic.Lib.ValueIdx

noncomputable section

namespace Cert.RffSpec

open Idealize.ShloMosaic Idealize.ShloMosaic.ValueIdx

/-- Entry (r, q) of the features: cos(∑ₖ X[r, k] · W[k, q] + b[q]) · 2⁻⁵. -/
def featureAt (X : (⟨2, ![65536, 512]⟩ : Shape).Idx → EReal) (W : (⟨2, ![512, 2048]⟩ : Shape).Idx → EReal)
    (b : (⟨1, ![2048]⟩ : Shape).Idx → EReal) (r : Fin 65536) (q : Fin 2048) : EReal :=
  Ideal.cos ((∑ k : Fin 512, X (ix2 r k) * W (ix2 k q)) + b (ix1 q)) * Ideal.ofBits .f32 0x3D000000#32

/-- The [65536 × 2048] array of features. -/
def feature (X : (⟨2, ![65536, 512]⟩ : Shape).Idx → EReal) (W : (⟨2, ![512, 2048]⟩ : Shape).Idx → EReal)
    (b : (⟨1, ![2048]⟩ : Shape).Idx → EReal) : (⟨2, ![65536, 2048]⟩ : Shape).Idx → EReal :=
  fun i => featureAt X W b (i 0) (i 1)

/-- The array read at an index whose coordinates are r and q. -/
theorem feature_apply (X : (⟨2, ![65536, 512]⟩ : Shape).Idx → EReal) (W : (⟨2, ![512, 2048]⟩ : Shape).Idx → EReal)
    (b : (⟨1, ![2048]⟩ : Shape).Idx → EReal) (i : (⟨2, ![65536, 2048]⟩ : Shape).Idx) (r : Fin 65536) (q : Fin 2048)
    (hr : (i 0).val = r.val) (hq : (i 1).val = q.val) : feature X W b i = featureAt X W b r q := by
  have e0 : (i 0 : Fin 65536) = r := Fin.ext hr
  have e1 : (i 1 : Fin 2048) = q := Fin.ext hq
  show featureAt X W b (i 0) (i 1) = _
  rw [e0, e1]

end Cert.RffSpec

end
-- ==== Proof.Blocks.lean ====
/-
  From the blocks the grid points write back to the whole result array.

  Grid point t stages rows 512·t … 512·t + 511 of the row matrix, the whole weight matrix and the whole offset row (the
  offset vector reshaped on the host to one row), and writes rows 512·t … 512·t + 511 of the result. Entry (p, q) of what
  it writes is the feature at row 512·t + p and column q, so the block is the features array read through the block's
  rectangle; the 128 blocks tile the 65536 rows, so after the run the result array is the features array.
-/
import proofs.«115438_j78151224918211_1_alg».proof.Proof.Gen.KernelIdeal.Value
import proofs.«115438_j78151224918211_1_alg».proof.Proof.Payload
import proofs.«115438_j78151224918211_1_alg».proof.Proof.Spec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RffValue

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the grid: the row blocks and the result blocks move with the point along the rows, the
    weights and the offset row stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The offset row the region finds is the offset vector, reshaped by the host to [1 × 2048]. -/
theorem offset_row (c : Dev nD) : (V m c main_v0 : S1x2048.Idx → EReal)
    = shapeCast S1x2048 (m ((c : Thread nD τ).loc main_arg2) : S2048.Idx → EReal) shapeCasts_S2048_S1x2048 := by
  dsimp only [Gen.V, Gen.hostOps0]; after_results; rfl

/-! ## The input blocks at a point, as entries of the argument arrays -/

/-- Entry (p, k) of the row block at point t is entry (512·t + p, k) of the row matrix. -/
theorem rows_block (c : Dev nD) (t : Fin cfg0.N) (p k : Fin 512) (r : Fin 65536) (hr : r.val = 512 * t.val + p.val) :
    (iblk m c 0 t : Vec Ideal S512x512 .f32) (ix2 p k) = (m ((c : Thread nD τ).loc main_arg0) : S65536x512.Idx → EReal) (ix2 r k) := by
  obtain ⟨e0, e1, -⟩ := block_indices t
  unfold iblk
  rw [View.read_apply]
  show V m c main_arg0 _ = _
  rw [V_main_arg0]
  congr 1
  funext a
  apply Fin.ext
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- The weight block at every point is the whole weight matrix. -/
theorem weights_block (c : Dev nD) (t : Fin cfg0.N) (k : Fin 512) (q : Fin 2048) :
    (iblk m c 1 t : Vec Ideal S512x2048 .f32) (ix2 k q) = (m ((c : Thread nD τ).loc main_arg1) : S512x2048.Idx → EReal) (ix2 k q) := by
  obtain ⟨-, -, e0, e1, -⟩ := block_indices t
  unfold iblk
  rw [View.read_apply]
  show V m c main_arg1 _ = _
  rw [V_main_arg1]
  congr 1
  funext a
  apply Fin.ext
  match a with
  | ⟨0, _⟩ => show win0_1.index t (0 : Fin 2) * 512 + 1 * k.val = k.val; rw [e0]; omega
  | ⟨1, _⟩ => show win0_1.index t (1 : Fin 2) * 2048 + 1 * q.val = q.val; rw [e1]; omega

/-- The offset block at every point is the whole offset row, whose entry q is the offset vector's entry q. -/
theorem offset_block (c : Dev nD) (t : Fin cfg0.N) (q : Fin 2048) :
    (iblk m c 2 t : Vec Ideal S1x2048 .f32) (ix2 (0 : Fin 1) q) = (m ((c : Thread nD τ).loc main_arg2) : S2048.Idx → EReal) (ix1 q) := by
  obtain ⟨-, -, -, -, e0, e1, -⟩ := block_indices t
  unfold iblk
  rw [View.read_apply]
  show V m c main_v0 _ = _
  rw [offset_row]
  refine (congrArg _ (?_ : _ = ix2 (0 : Fin 1) q)).trans (shapeCast_a_1a_apply _ _ (0 : Fin 1) q)
  funext a
  apply Fin.ext
  match a with
  | ⟨0, _⟩ => show win0_2.index t (0 : Fin 2) * 1 + 1 * 0 = 0; rw [e0]
  | ⟨1, _⟩ => show win0_2.index t (1 : Fin 2) * 2048 + 1 * q.val = q.val; rw [e1]; omega

/-! ## What a point writes back, and the array after the run -/

/-- The stored block's entry (p, q), over blocks that agree with the argument arrays where the entry reads them, is the
    feature at row r and column q. -/
theorem stored_feature (X : S65536x512.Idx → EReal) (W : S512x2048.Idx → EReal) (B : S2048.Idx → EReal)
    (x0 : Vec Ideal S512x512 .f32) (x1 : Vec Ideal S512x2048 .f32) (x2 : Vec Ideal S1x2048 .f32)
    (r : Fin 65536) (p : Fin 512) (q : Fin 2048)
    (h0 : ∀ k : Fin 512, x0 (ix2 p k) = X (ix2 r k)) (h1 : ∀ k : Fin 512, x1 (ix2 k q) = W (ix2 k q))
    (h2 : x2 (ix2 (0 : Fin 1) q) = B (ix1 q)) :
    k0_pay1 (F := Ideal) x0 x1 x2 (ix2 p q) = Cert.RffSpec.featureAt X W B r q := by
  rw [stored_at]
  unfold Cert.RffSpec.featureAt
  simp only [h0, h1, h2]

/-- The features of the three argument arrays as launched, on core c. -/
abbrev features (c : Dev nD) : S65536x2048.Idx → EReal :=
  Cert.RffSpec.feature (m ((c : Thread nD τ).loc main_arg0)) (m ((c : Thread nD τ).loc main_arg1)) (m ((c : Thread nD τ).loc main_arg2))

/-- What point t writes back is the features array read through the point's result block. -/
theorem flushed_eq (c : Dev nD) (t : Fin cfg0.N) :
    (dats m 0 c).flushed 3 t = ((cfg0.win 3).blk t).view.read (Elt Ideal) (features m c) := by
  have hN : cfg0.N = 128 := N_0
  have ht : t.val < 128 := hN ▸ t.isLt
  obtain ⟨-, -, -, -, -, -, e0, e1⟩ := block_indices t
  rw [flushed3]
  unfold out0_3
  rw [View.canon_unit_zero zero_offsets]
  simp only [View.ld_unit_zero (S := S512x512) zero_offsets, View.ld_unit_zero (S := S512x2048) zero_offsets, View.ld_unit_zero (S := S1x2048) zero_offsets]
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q) = features m c (((cfg0.win 3).blk t).view.emb (ix2 p q))
  refine (stored_feature (m ((c : Thread nD τ).loc main_arg0)) (m ((c : Thread nD τ).loc main_arg1)) (m ((c : Thread nD τ).loc main_arg2))
    (iblk m c 0 t) (iblk m c 1 t) (iblk m c 2 t) ⟨512 * t.val + p.val, by omega⟩ p q
    (fun k => rows_block m c t p k _ rfl) (fun k => weights_block m c t k q) (offset_block m c t q)).trans ?_
  refine (Cert.RffSpec.feature_apply _ _ _ _ _ _ ?_ ?_).symm
  · show win0_3.index t (0 : Fin 2) * 512 + 1 * p.val = 512 * t.val + p.val; rw [e0]; omega
  · show win0_3.index t (1 : Fin 2) * 2048 + 1 * q.val = q.val; rw [e1]; omega

/-- An index of the result array is in point t's block iff each coordinate is in the block's range on its axis. -/
theorem mem_block (t : Fin cfg0.N) (i : S65536x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1).slice (win0_3.rect t)).set ↔ _
  rw [View.set_slice_whole, Rect.mem_set_unit]
  exact Iff.rfl

/-- Every index of the result array is in the block of the point its row falls in. -/
theorem covered (i : S65536x2048.Idx) : ∃ t : Fin cfg0.N, (cfg0.win 3).flush t = true ∧ i ∈ ((cfg0.win 3).blk t).view.set := by
  have hN : cfg0.N = 128 := N_0
  have hi0 : (i 0).val < 65536 := (i 0).isLt
  have hi1 : (i 1).val < 2048 := (i 1).isLt
  let t : Fin cfg0.N := ⟨(i 0).val / 512, by rw [hN]; omega⟩
  obtain ⟨-, -, -, -, -, -, e0, e1⟩ := block_indices t
  have htv : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; rw [e0, htv]; omega
  | ⟨1, _⟩ => show win0_3.index t (1 : Fin 2) * 2048 ≤ (i 1).val ∧ (i 1).val < win0_3.index t (1 : Fin 2) * 2048 + 2048; rw [e1]; omega

/-- After the run the result array is the features array. -/
theorem final (c : Dev nD) : (dats m 0 c).arrAt 3 cfg0.N = features m c :=
  (dats m 0 c).arrAt_eq_of_cover 3 (features m c) (fun t _ => flushed_eq m c t) covered

/-- The kernel's run: every weakly fair execution ends with the result array at the features of the arguments, the
    arguments unchanged. -/
theorem run : θ_run defs (onTc (τ := τ) (main (F := Ideal))) ⟨m, fun _ => 0, ρ⟩ fun r => ∀ c : Dev nD,
      r.2.mem ((c : Thread nD τ).loc main_v1) = features m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RffValue

end
-- ==== Proof.Scale.lean ====
/-
  The two float words of this certificate, as the extended reals they denote, and the one law that joins the
  two programs: the kernel multiplies by the word of 2⁻⁵ = 1/32, the reference by the square root of the word of
  2⁻¹⁰ = 1/1024, and √(1/1024) = 1/32 because (1/32)² = 1/1024 and 1/32 ≥ 0.
-/
import Idealize.ShloMosaic.PureOps.Ideal

noncomputable section

namespace Cert.RffScale

open Idealize.ShloMosaic

/-- The word 0x3A800000 (exponent field 117, zero fraction) denotes 2⁻¹⁰ = 1/1024. -/
theorem ofBits_inv1024 : Ideal.ofBits .f32 0x3A800000#32 = ((1 / 1024 : ℝ) : EReal) := by
  simp [Ideal.ofBits, Ideal.ieee, -EReal.coe_mul]; norm_num

/-- The word 0x3D000000 (exponent field 122, zero fraction) denotes 2⁻⁵ = 1/32. -/
theorem ofBits_inv32 : Ideal.ofBits .f32 0x3D000000#32 = ((1 / 32 : ℝ) : EReal) := by
  simp [Ideal.ofBits, Ideal.ieee, -EReal.coe_mul]; norm_num

/-- √(1/1024) = 1/32 over the reals. -/
theorem real_sqrt_inv1024 : Real.sqrt (1 / 1024 : ℝ) = 1 / 32 := by
  rw [show (1 / 1024 : ℝ) = (1 / 32) ^ 2 by norm_num]
  exact Real.sqrt_sq (by norm_num)

/-- The reference's scale, the square root of the word of 1/1024, is the kernel's scale, the word of 1/32. -/
theorem sqrt_word : Ideal.sqrt (Ideal.ofBits .f32 0x3A800000#32) = Ideal.ofBits .f32 0x3D000000#32 := by
  rw [ofBits_inv1024, ofBits_inv32, Ideal.sqrt_coe, if_neg (by norm_num), real_sqrt_inv1024]

end Cert.RffScale

end
-- ==== Proof.RefValue.lean ====
/-
  The reference computes the features: its product on the host is the same sum over the 512 contracted positions, its
  offset is broadcast along the rows, its cosine is the same function, and its scale, the square root of 2⁻¹⁰, is 2⁻⁵.
-/
import proofs.«115438_j78151224918211_1_alg».proof.Proof.Gen.ReferenceIdeal.Read
import proofs.«115438_j78151224918211_1_alg».proof.Proof.Scale
import proofs.«115438_j78151224918211_1_alg».proof.Proof.Spec

noncomputable section

namespace Cert.ReferenceIdeal.RffRef

open Cert.ReferenceIdeal Cert.ReferenceIdeal.Gen Cert.ReferenceIdeal.Read Idealize.ShloMosaic Idealize.ShloMosaic.ValueIdx

/-- The reference's result, stage by stage, is the array of features of its three arguments. -/
theorem reference_eq (x0 : S65536x512.Idx → EReal) (x1 : S512x2048.Idx → EReal) (x2 : S2048.Idx → EReal) :
    val_main_v7 (F := Ideal) x0 x1 x2 = Cert.RffSpec.feature x0 x1 x2 := by
  funext i
  have el : ∀ k : Fin 512, lidx_main_v0 i k = ix2 (i 0) k := fun k => funext fun a => Fin.ext (by
    match a with
    | ⟨0, _⟩ => rfl
    | ⟨1, _⟩ => rfl)
  have er : ∀ k : Fin 512, ridx_main_v0 i k = ix2 k (i 1) := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v7_apply, val_main_v5_apply, val_main_v3_apply, val_main_v0_apply, val_main_v2_apply, val_main_v1_apply,
    val_main_v6_apply, val_main_v4_apply, val_main_cst_apply]
  simp only [el, er, eb, Ideal.mulf_def, Ideal.addf_def, Ideal.hostUnary_cos_def, Ideal.hostUnary_sqrt_def, Ideal.ofBits_def,
    Cert.RffScale.sqrt_word]
  rfl

end Cert.ReferenceIdeal.RffRef

end
-- ==== Proof.lean ====
/-
  Random Fourier features, cos(X · W + b) · √(2/2048), computed by a row-tiled kernel and by a plain reference, are one
  function of the three arguments over the extended reals.

  The kernel runs 128 grid points; point t multiplies rows 512·t … 512·t + 511 of X (narrowed to bf16, the identity over the
  extended reals) by the whole of W into a zero accumulator, adds the offset row b (reshaped on the host to [1 × 2048] and
  repeated down the rows), takes the cosine and multiplies by the word of 2⁻⁵. The reference takes the product of the whole
  of X with W, adds b broadcast along the rows, takes the cosine and multiplies by the square root of the word of 2⁻¹⁰.
  Entry (r, q) of both is cos(∑ₖ X[r, k] · W[k, q] + b[q]) · 2⁻⁵: the same sum over the 512 contracted positions in the same
  order, the same cosine, and √(2⁻¹⁰) = 2⁻⁵. No argument needs to be finite for this; the precondition is not opened.

  The three frames are the generated frame runs (for the reference, its generated run with the result dropped); the kernel's
  idealization rewrote nothing, so it is preserved trivially.
-/
import proofs.«115438_j78151224918211_1_alg».proof.Defs
import proofs.«115438_j78151224918211_1_alg».proof.Proof.Gen.Kernel
import proofs.«115438_j78151224918211_1_alg».proof.Proof.Gen.Kernel.Skeleton
import proofs.«115438_j78151224918211_1_alg».proof.Proof.Gen.Kernel.Launch
import proofs.«115438_j78151224918211_1_alg».proof.Proof.Gen.Kernel.Points
import proofs.«115438_j78151224918211_1_alg».proof.Proof.Gen.Kernel.Frame
import proofs.«115438_j78151224918211_1_alg».proof.Proof.Gen.KernelIdeal
import proofs.«115438_j78151224918211_1_alg».proof.Proof.Gen.KernelIdeal.Skeleton
import proofs.«115438_j78151224918211_1_alg».proof.Proof.Gen.KernelIdeal.Launch
import proofs.«115438_j78151224918211_1_alg».proof.Proof.Gen.KernelIdeal.Points
import proofs.«115438_j78151224918211_1_alg».proof.Proof.Gen.KernelIdeal.Frame
import proofs.«115438_j78151224918211_1_alg».proof.Proof.Gen.ReferenceIdeal
import proofs.«115438_j78151224918211_1_alg».proof.Proof.Gen.Pre_finite_inputs
import proofs.«115438_j78151224918211_1_alg».proof.Proof.Gen.KernelIdeal.Value
import proofs.«115438_j78151224918211_1_alg».proof.Proof.Gen.ReferenceIdeal.Run
import proofs.«115438_j78151224918211_1_alg».proof.Proof.Gen.ReferenceIdeal.Read
import proofs.«115438_j78151224918211_1_alg».proof.Proof.Blocks
import proofs.«115438_j78151224918211_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array ends at the features of its arguments and
    the reference's at the features of its own: the same array. -/
theorem algebraic : Cert.algebraic_KernelIdeal_ReferenceIdeal := by
  intro m ρ m' ρ' _ hagree
  refine ⟨fun c => Cert.KernelIdeal.RffValue.features m c, Cert.KernelIdeal.RffValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RffRef.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
